-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S8388608 32) (main_arg2 : FVec F S4096x1 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S8388608 : Shape := ⟨1, ![8388608]⟩
abbrev S4096x1 : Shape := ⟨2, ![4096, 1]⟩
abbrev S4096 : Shape := ⟨1, ![4096]⟩
abbrev S8192x4096 : Shape := ⟨2, ![8192, 4096]⟩
abbrev S4096x2048 : Shape := ⟨2, ![4096, 2048]⟩
abbrev S1x4096 : Shape := ⟨2, ![1, 4096]⟩
abbrev S8192x256 : Shape := ⟨2, ![8192, 256]⟩
abbrev S256x128 : Shape := ⟨2, ![256, 128]⟩
abbrev S256x1 : Shape := ⟨2, ![256, 1]⟩
abbrev S1x256 : Shape := ⟨2, ![1, 256]⟩
abbrev S256x128x1 : Shape := ⟨3, ![256, 128, 1]⟩
abbrev S256x128x2 : Shape := ⟨3, ![256, 128, 2]⟩
abbrev S256x256 : Shape := ⟨2, ![256, 256]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S4096x1, .f32⟩
  | .hbm, ⟨3, _⟩ => ⟨S4096, .f32⟩
  | .hbm, ⟨4, _⟩ => ⟨S8192x4096, .f32⟩
  | .hbm, ⟨5, _⟩ => ⟨S8192x4096, .bf16⟩
  | .hbm, ⟨6, _⟩ => ⟨S4096x2048, .i32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S8192x256, .bf16⟩
  | .local _ .vmem, ⟨1, _⟩ => ⟨S8192x256, .bf16⟩
  | .local _ .vmem, ⟨2, _⟩ => ⟨S256x128, .i32⟩
  | .local _ .vmem, ⟨3, _⟩ => ⟨S256x128, .i32⟩
  | .local _ .vmem, ⟨4, _⟩ => ⟨S256x1, .f32⟩
  | .local _ .vmem, ⟨5, _⟩ => ⟨S256x1, .f32⟩
  | .local _ .vmem, ⟨6, _⟩ => ⟨S1x256, .f32⟩
  | .local _ .vmem, ⟨7, _⟩ => ⟨S1x256, .f32⟩
  | .local _ .vmem, ⟨8, _⟩ => ⟨S8192x256, .f32⟩
  | .local _ .vmem, ⟨9, _⟩ => ⟨S8192x256, .f32⟩
  | .local _ .vmem, ⟨10, _⟩ => ⟨S8192x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32_60 : BitVec 32 := 15#32
  let v149 : BitVec 1 := Scalar.cmpi .eq arg1 c15_i32_60
  let v150 : BitVec 32 := Scalar.extui v149
  let c0_i32_61 : BitVec 32 := 0#32
  let v151 : BitVec 1 := Scalar.cmpi .ne v150 c0_i32_61
  v151

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x4096_S8192x4096 : S4x2048x4096.ShapeCasts S8192x4096
  bitsLt_bf16_f32 : FTy.bits .bf16 < FTy.bits .f32
  shapeCasts_S8388608_S4096x2048 : S8388608.ShapeCasts S4096x2048
  shapeCasts_S4096_S1x4096 : S4096.ShapeCasts S1x4096
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x128_S256x128x1 : S256x128.ShapeCasts S256x128x1
  concatenates_S256x128x1_S256x128x1_S256x128x2_d2 : Shape.Concatenates [S256x128x1, S256x128x1] S256x128x2 2
  shapeCasts_S256x128x2_S256x256 : S256x128x2.ShapeCasts S256x256
  inb_S256x1_S256x1_0_0 : ∀ a, (![0, 0] : Fin 2 → Nat) a + S256x1.size a ≤ S256x1.size a
  h_S256x1 : 0 < S256x1.numel
  broadcasts_S256x1_S256x256 : S256x1.Broadcasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  shapeCasts_S8192x4096_S4x2048x4096 : S8192x4096.ShapeCasts S4x2048x4096
  dot_S8192x256_S256x256_S8192x256_1_1_0_0_n_n_wf : DotDims.WF S8192x256 S256x256 S8192x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x4096.size a
  hwx0_0 : ∀ i : grid0.Coords, EltTy.bits .bf16 = 32 ∨ (Rect.block (s := S8192x4096) S8192x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x2048.size a
  hwx0_1 : ∀ i : grid0.Coords, EltTy.bits .i32 = 32 ∨ (Rect.block (s := S4096x2048) S256x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x256.size a ≤ S8192x4096.size a
  hwx0_4 : ∀ i : grid0.Coords, EltTy.bits .f32 = 32 ∨ (Rect.block (s := S8192x4096) S8192x256.size (cc0_transform_4 i) (hinb0_4 i)).WholeWords (EltTy.packing .f32)

variable [Facts₀]

def dot_S8192x256_S256x256_S8192x256_1_1_0_0_n_n : DotDims S8192x256 S256x256 S8192x256 where
  lhsContracting := [1]
  rhsContracting := [1]
  lhsNonContracting := [0]
  rhsNonContracting := [0]
  lhsBatch := []
  rhsBatch := []
  wf := dot_S8192x256_S256x256_S8192x256_1_1_0_0_n_n_wf

abbrev win0_0 : Pipeline.Window sig grid0 :=
  Pipeline.Window.ofSpec (Memref.whole main_v1) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8192x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S8388608 : Shape := ⟨1, ![8388608]⟩
abbrev S4096x1 : Shape := ⟨2, ![4096, 1]⟩
abbrev S4096 : Shape := ⟨1, ![4096]⟩
abbrev S16 : Shape := ⟨1, ![16]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S16777216x1 : Shape := ⟨2, ![16777216, 1]⟩
abbrev S4096x4096 : Shape := ⟨2, ![4096, 4096]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S4096x1, .f32⟩
  | .hbm, ⟨3, _⟩ => ⟨S4096, .f32⟩
  | .hbm, ⟨4, _⟩ => ⟨S16, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i1⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S16777216, .i32⟩
  | .hbm, ⟨25, _⟩ => ⟨S16777216x1, .i32⟩
  | .hbm, ⟨26, _⟩ => ⟨S16777216, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4x2048x4096, .f32⟩
  | .hbm, ⟨31, _⟩ => ⟨S1x1x4096, .f32⟩
  | .hbm, ⟨32, _⟩ => ⟨S4x2048x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S4096x4096 : S16777216.ShapeCasts S4096x4096
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S16_S16777216x1_S16777216_n_0_n_n_0_1_1_wf : GatherDims.WF S16 S16777216x1 S16777216 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S16_S16777216x1_S16777216_n_0_n_n_0_1_1 : GatherDims S16 S16777216x1 S16777216 where
  offsetDims := []
  collapsedSliceDims := [0]
  operandBatchingDims := []
  startIndicesBatchingDims := []
  startIndexMap := [0]
  indexVectorDim := 1
  sliceSizes := ![1]
  wf := gather_S16_S16777216x1_S16777216_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics both programs compute: a linear layer whose weight matrix is stored as packed 4-bit codes.

  A packed word holds two codes: its low four bits and the four bits above them. Entry (o, i) of the
  4096 x 4096 weight matrix is the code at flat position 4096 o + i of the interleaved code sequence (even
  positions the low codes, odd positions the high ones), looked up in a table of sixteen f32 values, times the
  row's scale. The layer's result at (b, s, o) is the inner product of x[b, s, .] with row o of that
  matrix, plus bias[o], over the extended reals, every operation the exact one.
-/
import Idealize.ShloMosaic.PureOps.Ideal
import Idealize.ShloMosaic.Lib.ValueIdx

noncomputable section

namespace Cert.PackedLinear

open Idealize.ShloMosaic Idealize.ShloMosaic.ValueIdx

/-- The sixteen table values, as f32 words, by code (the closing arm is reached by no code). -/
def codeTable : Fin 16 → BitVec 32 := fun
  | 0 => 0xBF800000#32 | 1 => 0xBF3239B1#32 | 2 => 0xBF066B30#32 | 3 => 0xBECA32A0#32
  | 4 => 0xBE91A24D#32 | 5 => 0xBE3D353F#32 | 6 => 0xBDBA7872#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0#32

/-- The table value of a code word (a word below sixteen; any other word is read modulo sixteen). -/
def codeValue (n : BitVec 32) : EReal := Ideal.ofBits .f32 (codeTable ⟨n.toNat % 16, Nat.mod_lt _ (by decide)⟩)

/-- The low code of a packed word: its low four bits. -/
def lowCode (c : BitVec 32) : BitVec 32 := c &&& 15#32

/-- The high code of a packed word: the four bits above the low four. -/
def highCode (c : BitVec 32) : BitVec 32 := (c.sshiftRight' 4#32) &&& 15#32

/-- The code at column i of row o: the packed word at flat position 2048 o + i / 2, its low code for an
    even column and its high code for an odd one. -/
def codeAt (codes : (⟨1, ![8388608]⟩ : Shape).Idx → BitVec 32) (o i : Fin 4096) : BitVec 32 :=
  if i.val % 2 = 0 then lowCode (codes (ix1 ⟨2048 * o.val + i.val / 2, by omega⟩))
  else highCode (codes (ix1 ⟨2048 * o.val + i.val / 2, by omega⟩))

/-- Entry (o, i) of the weight matrix: the table value of its code times the row's scale. -/
def weight (codes : (⟨1, ![8388608]⟩ : Shape).Idx → BitVec 32) (scale : (⟨2, ![4096, 1]⟩ : Shape).Idx → EReal)
    (o i : Fin 4096) : EReal :=
  codeValue (codeAt codes o i) * scale (ix2 o 0)

/-- The layer's result at batch b, position s, output channel o. -/
def resultAt (x : (⟨3, ![4, 2048, 4096]⟩ : Shape).Idx → EReal) (codes : (⟨1, ![8388608]⟩ : Shape).Idx → BitVec 32)
    (scale : (⟨2, ![4096, 1]⟩ : Shape).Idx → EReal) (bias : (⟨1, ![4096]⟩ : Shape).Idx → EReal)
    (b : Fin 4) (s : Fin 2048) (o : Fin 4096) : EReal :=
  (∑ i : Fin 4096, x (ix3 b s i) * weight codes scale o i) + bias (ix1 o)

/-- The layer's result array. -/
def result (x : (⟨3, ![4, 2048, 4096]⟩ : Shape).Idx → EReal) (codes : (⟨1, ![8388608]⟩ : Shape).Idx → BitVec 32)
    (scale : (⟨2, ![4096, 1]⟩ : Shape).Idx → EReal) (bias : (⟨1, ![4096]⟩ : Shape).Idx → EReal) :
    (⟨3, ![4, 2048, 4096]⟩ : Shape).Idx → EReal :=
  fun j => resultAt x codes scale bias (j 0) (j 1) (j 2)

end Cert.PackedLinear

end
-- ==== Proof.KernelBlocks.lean ====
/-
  The blocks a grid point reads, as entries of the argument arrays. Point t is tile row t / 16 (256 output channels)
  and tile column t % 16 (256 input features): the block of x is all 8192 rows of x, flattened, at the column's
  features; the block of codes the 256 x 128 packed words of the tile; the scale and bias blocks the tile row's 256
  channels.
-/
import proofs.«406387_j34067680592363_3_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx

section
variable {F : FTy → Type} [FloatOps F]
variable (m : (ℓ : Loc nD τ sig) → Buf (Elt F) ℓ)

/-- The four input blocks at point t, at their literal types. -/
abbrev xblk (c : Dev nD) (t : Fin cfg0.N) : Vec F S8192x256 .bf16 := iblk m c 0 t
abbrev cblk (c : Dev nD) (t : Fin cfg0.N) : Vec F S256x128 .i32 := iblk m c 1 t
abbrev sblk (c : Dev nD) (t : Fin cfg0.N) : Vec F S256x1 .f32 := iblk m c 2 t
abbrev bblk (c : Dev nD) (t : Fin cfg0.N) : Vec F S1x256 .f32 := iblk m c 3 t
end

variable (m : (ℓ : Loc nD τ sig) → Buf (Elt Ideal) ℓ)

theorem tlt (t : Fin cfg0.N) : t.val < 256 := lt_of_lt_of_eq t.isLt (show cfg0.N = 256 from N_0)

/-! ## Where each window sits at a grid point

Point t has coordinates (t / 16, t % 16). The block index of the window of x is (0, t % 16), of the packed words
(t / 16, t % 16), of the scales (t / 16, 0), of the biases (0, t / 16): decided once over the 256 points. -/

private theorem index_x : ∀ t : Fin grid0.N, win0_0.index t (0 : Fin 2) = 0 ∧ win0_0.index t (1 : Fin 2) = t.val % 16 :=
  (by decide +kernel : ∀ t : Fin grid0.N, _)
private theorem index_codes : ∀ t : Fin grid0.N, win0_1.index t (0 : Fin 2) = t.val / 16 ∧ win0_1.index t (1 : Fin 2) = t.val % 16 :=
  (by decide +kernel : ∀ t : Fin grid0.N, _)
private theorem index_scale : ∀ t : Fin grid0.N, win0_2.index t (0 : Fin 2) = t.val / 16 ∧ win0_2.index t (1 : Fin 2) = 0 :=
  (by decide +kernel : ∀ t : Fin grid0.N, _)
private theorem index_bias : ∀ t : Fin grid0.N, win0_3.index t (0 : Fin 2) = 0 ∧ win0_3.index t (1 : Fin 2) = t.val / 16 :=
  (by decide +kernel : ∀ t : Fin grid0.N, _)

/-! ## The arrays the host operations wrote, as terms over the arguments -/

/-- The [8192, 4096] bf16 array the region reads x from: x reshaped, then narrowed entry by entry. -/
private theorem xarr_eq (c : Dev nD) : (V m c main_v1 : FVec Ideal S8192x4096 .bf16)
    = truncf (F := Ideal) (s := S8192x4096) (φ := .f32) .bf16
        (shapeCast S8192x4096 (m ((c.tc : Thread nD τ).loc main_arg0)) shapeCasts_S4x2048x4096_S8192x4096 : FVec Ideal S8192x4096 .f32)
        bitsLt_bf16_f32 := by
  show StableHlo.after hostOps0 (fun b => m (c, b)) (Proc.devRef .tc main_v1) = _
  after_results
  rfl

/-- The [4096, 2048] array of packed words: the flat sequence of words reshaped. -/
private theorem carr_eq (c : Dev nD) : (V m c main_v2 : S4096x2048.Idx → BitVec 32)
    = shapeCast S4096x2048 (m ((c.tc : Thread nD τ).loc main_arg1)) shapeCasts_S8388608_S4096x2048 := by
  show StableHlo.after hostOps0 (fun b => m (c, b)) (Proc.devRef .tc main_v2) = _
  after_results
  rfl

/-- The [1, 4096] array of biases: the bias vector reshaped. -/
private theorem barr_eq (c : Dev nD) : (V m c main_v3 : S1x4096.Idx → EReal)
    = shapeCast S1x4096 (m ((c.tc : Thread nD τ).loc main_arg3)) shapeCasts_S4096_S1x4096 := by
  show StableHlo.after hostOps0 (fun b => m (c, b)) (Proc.devRef .tc main_v3) = _
  after_results
  rfl

/-! ## The blocks read at an index

A block's coordinate on an axis is its block index times the block's extent plus the coordinate inside the block;
a reshape keeps the row-major position; narrowing to bf16 is the identity over the extended reals. -/

/-- Row r, column j of the block of x at point t is x[r / 2048, r % 2048, 256 (t % 16) + j]. -/
theorem xblk_apply (c : Dev nD) (t : Fin cfg0.N) (r : Fin 8192) (j : Fin 256) :
    xblk m c t (ix2 r j) = m ((c.tc : Thread nD τ).loc main_arg0)
      (ix3 ⟨r.val / 2048, by omega⟩ ⟨r.val % 2048, by omega⟩ ⟨256 * (t.val % 16) + j.val, by omega⟩) := by
  unfold xblk iblk
  rw [View.read_apply]
  show V m c main_v1 _ = m (c.tc.loc main_arg0) _
  rw [xarr_eq]
  show shapeCast S8192x4096 (m ((c.tc : Thread nD τ).loc main_arg0)) shapeCasts_S4x2048x4096_S8192x4096 _ = _
  refine shapeCast_apply _ _ _ _ ?_
  show (S4x2048x4096.rowMajor (ix3 ⟨r.val / 2048, _⟩ ⟨r.val % 2048, _⟩ ⟨256 * (t.val % 16) + j.val, _⟩)).val = (S8192x4096.rowMajor _).val
  rw [Shape.rowMajor_val_three, Shape.rowMajor_val_two]
  show (r.val / 2048 * 2048 + r.val % 2048) * 4096 + (256 * (t.val % 16) + j.val)
    = (win0_0.index t 0 * 8192 + 1 * r.val) * 4096 + (win0_0.index t 1 * 256 + 1 * j.val)
  rw [(index_x t).1, (index_x t).2]
  omega

/-- Row q, column j of the block of packed words at point t is word 2048 (256 (t / 16) + q) + 128 (t % 16) + j. -/
theorem cblk_apply (c : Dev nD) (t : Fin cfg0.N) (q : Fin 256) (j : Fin 128) :
    cblk m c t (ix2 q j) = m ((c.tc : Thread nD τ).loc main_arg1)
      (ix1 ⟨2048 * (256 * (t.val / 16) + q.val) + (128 * (t.val % 16) + j.val), by have := tlt t; omega⟩) := by
  unfold cblk iblk
  rw [View.read_apply]
  show V m c main_v2 _ = m (c.tc.loc main_arg1) _
  rw [carr_eq]
  refine shapeCast_apply _ _ _ _ ?_
  show (S8388608.rowMajor (ix1 ⟨2048 * (256 * (t.val / 16) + q.val) + (128 * (t.val % 16) + j.val), _⟩)).val = (S4096x2048.rowMajor _).val
  rw [Shape.rowMajor_val_one, Shape.rowMajor_val_two]
  show 2048 * (256 * (t.val / 16) + q.val) + (128 * (t.val % 16) + j.val)
    = (win0_1.index t 0 * 256 + 1 * q.val) * 2048 + (win0_1.index t 1 * 128 + 1 * j.val)
  rw [(index_codes t).1, (index_codes t).2]
  omega

/-- Row q of the scale block at point t is the scale of channel 256 (t / 16) + q. -/
theorem sblk_apply (c : Dev nD) (t : Fin cfg0.N) (q : Fin 256) :
    sblk m c t (ix2 q 0) = m ((c.tc : Thread nD τ).loc main_arg2) (ix2 ⟨256 * (t.val / 16) + q.val, by have := tlt t; omega⟩ 0) := by
  unfold sblk iblk
  rw [View.read_apply]
  show V m c main_arg2 _ = m (c.tc.loc main_arg2) _
  rw [V_main_arg2]
  congr 1
  funext a
  apply Fin.ext
  match a with
  | ⟨0, _⟩ => show win0_2.index t 0 * 256 + 1 * q.val = 256 * (t.val / 16) + q.val; rw [(index_scale t).1]; omega
  | ⟨1, _⟩ => show win0_2.index t 1 * 1 + 1 * 0 = 0; rw [(index_scale t).2]

/-- Column q of the bias block at point t is the bias of channel 256 (t / 16) + q. -/
theorem bblk_apply (c : Dev nD) (t : Fin cfg0.N) (q : Fin 256) :
    bblk m c t (ix2 0 q) = m ((c.tc : Thread nD τ).loc main_arg3) (ix1 ⟨256 * (t.val / 16) + q.val, by have := tlt t; omega⟩) := by
  unfold bblk iblk
  rw [View.read_apply]
  show V m c main_v3 _ = m (c.tc.loc main_arg3) _
  rw [barr_eq]
  refine shapeCast_apply _ _ _ _ ?_
  show (S4096.rowMajor (ix1 ⟨256 * (t.val / 16) + q.val, _⟩)).val = (S1x4096.rowMajor _).val
  rw [Shape.rowMajor_val_one, Shape.rowMajor_val_two]
  show 256 * (t.val / 16) + q.val = (win0_3.index t 0 * 1 + 1 * 0) * 4096 + (win0_3.index t 1 * 256 + 1 * q.val)
  rw [(index_bias t).1, (index_bias t).2]
  omega

end Cert.KernelIdeal.Blocks

end
-- ==== Proof.KernelStep.lean ====
/-
  One grid step of the accumulation, as a function of the blocks the step reads, and its value at an index over the
  extended reals: the accumulator's entry plus the inner product, over the 256 columns of the step's tile, of the
  row of x with the decoded and scaled row of codes.
-/
import proofs.«406387_j34067680592363_3_alg».proof.Proof.Gen.KernelIdeal
import proofs.«406387_j34067680592363_3_alg».proof.Proof.Gen.KernelIdeal.Skeleton
import proofs.«406387_j34067680592363_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx Cert.PackedLinear

variable {F : FTy → Type} [FloatOps F]

/-- What one grid step leaves in the accumulator: the old accumulator plus the product of the step's block of x with
    the decoded, scaled tile of codes (the body's arithmetic, as the printed payloads compose). -/
def step (x : Vec F S8192x256 .bf16) (codes : Vec F S256x128 .i32) (scale : Vec F S256x1 .f32)
    (acc : Vec F S8192x256 .f32) : FVec F S8192x256 .f32 :=
  k0_pay13 (k0_pay4 codes) (k0_pay6 (k0_pay3 codes) (k0_pay5 codes) 7#32)
    (k0_pay10 (k0_pay4 codes) k0_pay7 (k0_pay8 (k0_pay4 codes)) k0_pay9) (k0_pay11 (k0_pay4 codes)) k0_pay12 scale acc x

/-- The code of column j of tile row q: the low code of packed word (q, j / 2) for even j, its high code for odd j. -/
def tileCode (codes : Vec Ideal S256x128 .i32) (q : Fin 256) (j : Fin 256) : BitVec 32 :=
  if j.val % 2 = 0 then lowCode (codes (ix2 q ⟨j.val / 2, by omega⟩)) else highCode (codes (ix2 q ⟨j.val / 2, by omega⟩))

/-! ## The layout operations of the step, read at an index -/

/-- A column broadcast over the columns reads the column's entry of the row. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column j of the interleaved tile: two [a, b] arrays, each cast to [a, b, 1], joined along the last axis and
    cast to [a, 2 b], read at (q, j) the first array at (q, j / 2) for even j and the second there for odd j. -/
private theorem interleave_apply {α : Type} (lo hi : (S256x128 : Shape).Idx → α)
    (h1 : S256x128.ShapeCasts S256x128x1) (hc : Shape.Concatenates [S256x128x1, S256x128x1] S256x128x2 2)
    (h2 : S256x128x2.ShapeCasts S256x256) (q : Fin 256) (j : Fin 256) :
    shapeCast S256x256 (concatenate S256x128x2 2 [⟨S256x128x1, shapeCast S256x128x1 lo h1⟩, ⟨S256x128x1, shapeCast S256x128x1 hi h1⟩] hc) h2 (ix2 q j)
      = if j.val % 2 = 0 then lo (ix2 q ⟨j.val / 2, by omega⟩) else hi (ix2 q ⟨j.val / 2, by omega⟩) := by
  have hj := j.isLt
  have hm : j.val / 2 < 128 := by omega
  have he2 : j.val % 2 < 2 := by omega
  rw [shapeCast_apply _ h2 (ix2 q j) (ix3 q (⟨j.val / 2, hm⟩ : Fin 128) (⟨j.val % 2, he2⟩ : Fin 2)) (by
    rw [Shape.rowMajor_val_three, Shape.rowMajor_val_two]
    show (q.val * 128 + j.val / 2) * 2 + j.val % 2 = q.val * 256 + j.val
    omega)]
  have hcast : ∀ (v : (S256x128 : Shape).Idx → α), shapeCast S256x128x1 v h1 (ix3 q (⟨j.val / 2, hm⟩ : Fin 128) (0 : Fin 1)) = v (ix2 q ⟨j.val / 2, hm⟩) :=
    fun v => shapeCast_apply v h1 _ _ (by
      rw [Shape.rowMajor_val_three, Shape.rowMajor_val_two]
      show q.val * 128 + j.val / 2 = (q.val * 128 + j.val / 2) * 1 + 0
      omega)
  split
  · next he =>
    refine (concatenate_pair_apply_left (t := S256x128x2) (s₁ := S256x128x1) (s₂ := S256x128x1) (2 : Fin 3) _ _ hc
      (ix3 q (⟨j.val / 2, hm⟩ : Fin 128) (⟨j.val % 2, he2⟩ : Fin 2)) rfl (ix3 q (⟨j.val / 2, hm⟩ : Fin 128) (0 : Fin 1)) (fun b => ?_)).trans (hcast lo)
    match b with
    | ⟨0, _⟩ => rfl
    | ⟨1, _⟩ => rfl
    | ⟨2, _⟩ => exact he.symm
  · next he =>
    refine (concatenate_pair_apply_right (t := S256x128x2) (s₁ := S256x128x1) (s₂ := S256x128x1) (2 : Fin 3) _ _ hc
      (ix3 q (⟨j.val / 2, hm⟩ : Fin 128) (⟨j.val % 2, he2⟩ : Fin 2)) rfl rfl (ix3 q (⟨j.val / 2, hm⟩ : Fin 128) (0 : Fin 1)) (fun b hb => ?_) ?_).trans (hcast hi)
    · match b with
      | ⟨0, _⟩ => rfl
      | ⟨1, _⟩ => rfl
      | ⟨2, _⟩ => exact absurd rfl hb
    · show 0 + 1 = j.val % 2
      omega

/-! ## The product's operand indices -/

/-- The left operand's index at output (r, q) and contraction position k: row r. -/
private theorem lhsIdx_0 (j : S8192x256.Idx) (k : dot_S8192x256_S256x256_S8192x256_1_1_0_0_n_n.contr.Idx) :
    (dot_S8192x256_S256x256_S8192x256_1_1_0_0_n_n.lhsIdx j k 0).val = (j 0).val := rfl

/-- … column k. -/
private theorem lhsIdx_1 (j : S8192x256.Idx) (k : dot_S8192x256_S256x256_S8192x256_1_1_0_0_n_n.contr.Idx) :
    (dot_S8192x256_S256x256_S8192x256_1_1_0_0_n_n.lhsIdx j k 1).val = (k ⟨0, Nat.one_pos⟩).val :=
  dot_S8192x256_S256x256_S8192x256_1_1_0_0_n_n.lhsIdx_val_of_single (cl := 1) rfl j k

/-- The right operand's index there: row q … -/
private theorem rhsIdx_0 (j : S8192x256.Idx) (k : dot_S8192x256_S256x256_S8192x256_1_1_0_0_n_n.contr.Idx) :
    (dot_S8192x256_S256x256_S8192x256_1_1_0_0_n_n.rhsIdx j k 0).val = (j 1).val := rfl

/-- … column k. -/
private theorem rhsIdx_1 (j : S8192x256.Idx) (k : dot_S8192x256_S256x256_S8192x256_1_1_0_0_n_n.contr.Idx) :
    (dot_S8192x256_S256x256_S8192x256_1_1_0_0_n_n.rhsIdx j k 1).val = (k ⟨0, Nat.one_pos⟩).val :=
  dot_S8192x256_S256x256_S8192x256_1_1_0_0_n_n.rhsIdx_val_of_single (cr := 1) rfl j k

/-- The product into the zero block, at (r, q): the inner product of row r of the left operand with row q of the right one. -/
private theorem matmul_zero_apply (lhs : FVec Ideal S8192x256 .bf16) (rhs : FVec Ideal S256x256 .bf16) (r : Fin 8192) (q : Fin 256) :
    matmul dot_S8192x256_S256x256_S8192x256_1_1_0_0_n_n none lhs rhs (constant (F := Ideal) S8192x256 .f32 0x00000000#32) (ix2 r q)
      = ∑ j : Fin 256, lhs (ix2 r j) * rhs (ix2 q j) := by
  refine (Ideal.matmul_constant_zero_apply _ none lhs rhs (ix2 r q)).trans ?_
  rw [← Equiv.sum_comp (contrEquiv1 dot_S8192x256_S256x256_S8192x256_1_1_0_0_n_n 256 rfl rfl).symm]
  refine Finset.sum_congr rfl fun j _ => ?_
  have hk := contrEquiv1_symm_val dot_S8192x256_S256x256_S8192x256_1_1_0_0_n_n 256 rfl rfl j
  congr 1
  · refine congrArg lhs (funext fun a => Fin.ext ?_)
    match a with
    | ⟨0, _⟩ => exact lhsIdx_0 _ _
    | ⟨1, _⟩ => exact (lhsIdx_1 _ _).trans hk
  · refine congrArg rhs (funext fun a => Fin.ext ?_)
    match a with
    | ⟨0, _⟩ => exact rhsIdx_0 _ _
    | ⟨1, _⟩ => exact (rhsIdx_1 _ _).trans hk

/-! ## The decode of a code word -/

/-- The chain of fifteen selects over a code word: the table's value for code 0, replaced in turn by the value for code k where the word equals k. -/
private def decode (n : BitVec 32) : EReal :=
  Scalar.select (IntOp.cmpi .eq n 15#32) (Ideal.ofBits .f32 0x3F800000#32)
  (Scalar.select (IntOp.cmpi .eq n 14#32) (Ideal.ofBits .f32 0x3F3913B3#32)
  (Scalar.select (IntOp.cmpi .eq n 13#32) (Ideal.ofBits .f32 0x3F1007AB#32)
  (Scalar.select (IntOp.cmpi .eq n 12#32) (Ideal.ofBits .f32 0x3EE1A4B8#32)
  (Scalar.select (IntOp.cmpi .eq n 11#32) (Ideal.ofBits .f32 0x3EAD033A#32)
  (Scalar.select (IntOp.cmpi .eq n 10#32) (Ideal.ofBits .f32 0x3E7C04DD#32)
  (Scalar.select (IntOp.cmpi .eq n 9#32) (Ideal.ofBits .f32 0x3E24CAE3#32)
  (Scalar.select (IntOp.cmpi .eq n 8#32) (Ideal.ofBits .f32 0x3DA2FAFF#32)
  (Scalar.select (IntOp.cmpi .eq n 7#32) (Ideal.ofBits .f32 0x00000000#32)
  (Scalar.select (IntOp.cmpi .eq n 6#32) (Ideal.ofBits .f32 0xBDBA7872#32)
  (Scalar.select (IntOp.cmpi .eq n 5#32) (Ideal.ofBits .f32 0xBE3D353F#32)
  (Scalar.select (IntOp.cmpi .eq n 4#32) (Ideal.ofBits .f32 0xBE91A24D#32)
  (Scalar.select (IntOp.cmpi .eq n 3#32) (Ideal.ofBits .f32 0xBECA32A0#32)
  (Scalar.select (IntOp.cmpi .eq n 2#32) (Ideal.ofBits .f32 0xBF066B30#32)
  (Scalar.select (IntOp.cmpi .eq n 1#32) (Ideal.ofBits .f32 0xBF3239B1#32)
    (Ideal.ofBits .f32 0xBF800000#32)))))))))))))))

/-- On a word below sixteen the chain is the table's value of the word. -/
private theorem decode_eq (n : BitVec 32) (h : n.toNat < 16) : decode n = codeValue n := by
  obtain ⟨k, rfl⟩ : ∃ k : Fin 16, n = BitVec.ofNat 32 k.val :=
    ⟨⟨n.toNat, h⟩, by simp⟩
  fin_cases k <;> rfl

private theorem lowCode_lt (w : BitVec 32) : (lowCode w).toNat < 16 := by
  unfold lowCode
  rw [BitVec.toNat_and]
  exact Nat.lt_of_le_of_lt Nat.and_le_right (by decide)

private theorem highCode_lt (w : BitVec 32) : (highCode w).toNat < 16 := by
  unfold highCode
  rw [BitVec.toNat_and]
  exact Nat.lt_of_le_of_lt Nat.and_le_right (by decide)

/-- The low codes' decoded block. -/
private theorem low_decoded (codes : Vec Ideal S256x128 .i32) :
    k0_pay6 (F := Ideal) (k0_pay3 (F := Ideal) codes) (k0_pay5 (F := Ideal) codes) 7#32 = fun i => decode (lowCode (codes i)) := by
  have h2 : k0_pay2 (F := Ideal) codes = codes := shapeCast_self _ _
  unfold k0_pay6 k0_pay5 k0_pay3
  rw [h2]
  rfl

/-- One step at an index, over the extended reals. -/
theorem step_apply (x : Vec Ideal S8192x256 .bf16) (codes : Vec Ideal S256x128 .i32) (scale : Vec Ideal S256x1 .f32)
    (acc : Vec Ideal S8192x256 .f32) (r : Fin 8192) (q : Fin 256) :
    step (F := Ideal) x codes scale acc (ix2 r q)
      = acc (ix2 r q) + ∑ j : Fin 256, x (ix2 r j) * (codeValue (tileCode codes q j) * scale (ix2 q 0)) := by
  have h2 : k0_pay2 (F := Ideal) codes = codes := shapeCast_self _ _
  unfold step
  rw [low_decoded]
  unfold k0_pay13 k0_pay12 k0_pay11 k0_pay10 k0_pay9 k0_pay8 k0_pay7 k0_pay4
  rw [h2]
  dsimp only
  rw [shapeCast_self, addf_apply]
  refine congrArg (acc (ix2 r q) + ·) ?_
  rw [shapeCast_self, matmul_zero_apply]
  refine Finset.sum_congr rfl fun j _ => ?_
  refine congrArg (x (ix2 r j) * ·) ?_
  rw [truncf_apply, mulf_apply, interleave_apply, broadcastTo_a1_ab_apply]
  refine congrArg (· * scale (ix2 q 0)) ?_
  unfold tileCode
  by_cases he : j.val % 2 = 0
  · rw [if_pos he, if_pos he]
    exact decode_eq _ (lowCode_lt _)
  · rw [if_neg he, if_neg he]
    exact decode_eq _ (highCode_lt _)

/-- The block the first step of a row of tiles starts from is zero. -/
theorem zero_apply (r : Fin 8192) (q : Fin 256) : (k0_pay1 (F := Ideal)) (ix2 r q) = 0 := by
  unfold k0_pay1
  rw [shapeCast_self]
  exact Ideal.ofBits_zero_f32

/-- The last step's output block: the accumulator plus the bias row, broadcast over the rows. -/
theorem bias_apply (acc : Vec Ideal S8192x256 .f32) (b : Vec Ideal S1x256 .f32) (r : Fin 8192) (q : Fin 256) :
    k0_pay14 (F := Ideal) acc b (ix2 r q) = acc (ix2 r q) + b (ix2 0 q) := by
  unfold k0_pay14
  rw [shapeCast_self]
  show acc (ix2 r q) + broadcastTo S8192x256 b broadcasts_S1x256_S8192x256 (ix2 r q) = _
  rw [broadcastTo_1b_ab_apply]

end Cert.KernelIdeal.Step

end
-- ==== Proof.KernelPieces.lean ====
/-
  What each of the body's three control cases leaves behind, as the step function of the blocks it read:
  at the first tile column the accumulator restarts from the zero block; elsewhere it continues from what the
  point before left; at the last tile column the output block is the accumulator plus the bias row.
-/
import proofs.«406387_j34067680592363_3_alg».proof.Proof.Gen.KernelIdeal.Frame
import proofs.«406387_j34067680592363_3_alg».proof.Proof.KernelStep
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Step

variable {F : FTy → Type} [FloatOps F]

theorem hz : (![0, 0] : Fin 2 → Nat) = fun _ => 0 := funext fun a => by fin_cases a <;> rfl

/-- A middle tile column: the accumulator continues from what the point before left. -/
theorem acc_B (c : Dev nD) (i : grid0.Coords) (arg2 : Memref sig .tc .vmem S8192x256 .bf16) (harg2 : arg2.IsWhole) (arg3 : Memref sig .tc .vmem S256x128 .i32) (harg3 : arg3.IsWhole) (arg4 : Memref sig .tc .vmem S256x1 .f32) (harg4 : arg4.IsWhole) (arg5 : Memref sig .tc .vmem S1x256 .f32) (harg5 : arg5.IsWhole) (arg6 : Memref sig .tc .vmem S8192x256 .f32) (harg6 : arg6.IsWhole) (arg7 : Memref sig .tc .vmem S8192x256 .f32) (harg7 : arg7.IsWhole) (hc0 : ¬cond0_0 i) (hc1 : ¬cond0_1 i)
    (x0 : Vec F S8192x256 .bf16) (x1 : Vec F S256x128 .i32) (x2 : Vec F S256x1 .f32) (x3 : Vec F S1x256 .f32) (xs0 : Vec F S8192x256 .f32) :
    sout0_B_0 c i arg2 harg2 arg3 harg3 arg4 harg4 arg5 harg5 arg6 harg6 arg7 harg7 hc0 hc1 x0 x1 x2 x3 xs0 = step x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  unfold step
  simp only [View.readAt_eq_ld, harg2.read_unread, harg3.read_unread, harg4.read_unread, harg7.read_unread,
    View.ld_unit_zero (S := S8192x256) hz, View.ld_unit_zero (S := S256x128) hz, View.ld_unit_zero (S := S256x1) hz]

/-- The first tile column: the accumulator restarts from the zero block. -/
theorem acc_A (c : Dev nD) (i : grid0.Coords) (arg2 : Memref sig .tc .vmem S8192x256 .bf16) (harg2 : arg2.IsWhole) (arg3 : Memref sig .tc .vmem S256x128 .i32) (harg3 : arg3.IsWhole) (arg4 : Memref sig .tc .vmem S256x1 .f32) (harg4 : arg4.IsWhole) (arg5 : Memref sig .tc .vmem S1x256 .f32) (harg5 : arg5.IsWhole) (arg6 : Memref sig .tc .vmem S8192x256 .f32) (harg6 : arg6.IsWhole) (arg7 : Memref sig .tc .vmem S8192x256 .f32) (harg7 : arg7.IsWhole) (hc0 : cond0_0 i) (hc1 : ¬cond0_1 i)
    (x0 : Vec F S8192x256 .bf16) (x1 : Vec F S256x128 .i32) (x2 : Vec F S256x1 .f32) (x3 : Vec F S1x256 .f32) :
    sout0_A_0 c i arg2 harg2 arg3 harg3 arg4 harg4 arg5 harg5 arg6 harg6 arg7 harg7 hc0 hc1 x0 x1 x2 x3 = step x0 x1 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S8192x256) hz]
  unfold step
  simp only [View.readAt_eq_ld, harg2.read_unread, harg3.read_unread, harg4.read_unread, harg5.read_unread, harg7.read_unread,
    View.readCov_unit_zero (S := S8192x256) _ hz,
    View.ld_unit_zero (S := S8192x256) hz, View.ld_unit_zero (S := S256x128) hz, View.ld_unit_zero (S := S256x1) hz, View.ld_unit_zero (S := S1x256) hz]

/-- The last tile column: the accumulator continues, -/
theorem acc_C (c : Dev nD) (i : grid0.Coords) (arg2 : Memref sig .tc .vmem S8192x256 .bf16) (harg2 : arg2.IsWhole) (arg3 : Memref sig .tc .vmem S256x128 .i32) (harg3 : arg3.IsWhole) (arg4 : Memref sig .tc .vmem S256x1 .f32) (harg4 : arg4.IsWhole) (arg5 : Memref sig .tc .vmem S1x256 .f32) (harg5 : arg5.IsWhole) (arg6 : Memref sig .tc .vmem S8192x256 .f32) (harg6 : arg6.IsWhole) (arg7 : Memref sig .tc .vmem S8192x256 .f32) (harg7 : arg7.IsWhole) (hc0 : ¬cond0_0 i) (hc1 : cond0_1 i)
    (x0 : Vec F S8192x256 .bf16) (x1 : Vec F S256x128 .i32) (x2 : Vec F S256x1 .f32) (x3 : Vec F S1x256 .f32) (xs0 : Vec F S8192x256 .f32) :
    sout0_C_0 c i arg2 harg2 arg3 harg3 arg4 harg4 arg5 harg5 arg6 harg6 arg7 harg7 hc0 hc1 x0 x1 x2 x3 xs0 = step x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  unfold step
  simp only [View.readAt_eq_ld, harg2.read_unread, harg3.read_unread, harg4.read_unread, harg5.read_unread, harg7.read_unread,
    View.readCov_unit_zero (S := S8192x256) _ hz,
    View.ld_unit_zero (S := S8192x256) hz, View.ld_unit_zero (S := S256x128) hz, View.ld_unit_zero (S := S256x1) hz, View.ld_unit_zero (S := S1x256) hz]

/-- and the output block is the new accumulator plus the bias row. -/
theorem out_C (c : Dev nD) (i : grid0.Coords) (arg2 : Memref sig .tc .vmem S8192x256 .bf16) (harg2 : arg2.IsWhole) (arg3 : Memref sig .tc .vmem S256x128 .i32) (harg3 : arg3.IsWhole) (arg4 : Memref sig .tc .vmem S256x1 .f32) (harg4 : arg4.IsWhole) (arg5 : Memref sig .tc .vmem S1x256 .f32) (harg5 : arg5.IsWhole) (arg6 : Memref sig .tc .vmem S8192x256 .f32) (harg6 : arg6.IsWhole) (arg7 : Memref sig .tc .vmem S8192x256 .f32) (harg7 : arg7.IsWhole) (hc0 : ¬cond0_0 i) (hc1 : cond0_1 i)
    (x0 : Vec F S8192x256 .bf16) (x1 : Vec F S256x128 .i32) (x2 : Vec F S256x1 .f32) (x3 : Vec F S1x256 .f32) (xs0 : Vec F S8192x256 .f32) :
    out0_C_4 c i arg2 harg2 arg3 harg3 arg4 harg4 arg5 harg5 arg6 harg6 arg7 harg7 hc0 hc1 x0 x1 x2 x3 xs0 = k0_pay14 (step x0 x1 x2 xs0) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  unfold step
  simp only [View.readAt_eq_ld, harg2.read_unread, harg3.read_unread, harg4.read_unread, harg5.read_unread, harg7.read_unread,
    View.readCov_unit_zero (S := S8192x256) _ hz,
    View.ld_unit_zero (S := S8192x256) hz, View.ld_unit_zero (S := S256x128) hz, View.ld_unit_zero (S := S256x1) hz, View.ld_unit_zero (S := S1x256) hz]

end Cert.KernelIdeal.Pieces

end
-- ==== Proof.KernelInv.lean ====
/-
  The accumulator after each grid point. Point n is tile row n / 16 and tile column n % 16; after it the
  accumulator's entry (r, q) is the partial inner product of row r of x (flattened to 8192 rows) with weight row
  256 (n / 16) + q over the input features below 256 (n % 16 + 1): the zero block at a tile row's first column,
  then one tile column's 256 terms added per point. By induction on the point.
-/
import proofs.«406387_j34067680592363_3_alg».proof.Proof.Gen.KernelIdeal.Frame
import proofs.«406387_j34067680592363_3_alg».proof.Proof.Spec
import proofs.«406387_j34067680592363_3_alg».proof.Proof.KernelStep
import proofs.«406387_j34067680592363_3_alg».proof.Proof.KernelBlocks
import proofs.«406387_j34067680592363_3_alg».proof.Proof.KernelPieces
import Idealize.ShloMosaic.Lib.ValueIdx

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Step Cert.KernelIdeal.Blocks Cert.KernelIdeal.Pieces Cert.PackedLinear

variable (m : (ℓ : Loc nD τ sig) → Buf (Elt Ideal) ℓ)

/-- The four argument arrays, at their literal types. -/
abbrev xArr (c : Dev nD) : (⟨3, ![4, 2048, 4096]⟩ : Shape).Idx → EReal := m ((c.tc : Thread nD τ).loc main_arg0)
abbrev codeArr (c : Dev nD) : (⟨1, ![8388608]⟩ : Shape).Idx → BitVec 32 := m ((c.tc : Thread nD τ).loc main_arg1)
abbrev scaleArr (c : Dev nD) : (⟨2, ![4096, 1]⟩ : Shape).Idx → EReal := m ((c.tc : Thread nD τ).loc main_arg2)
abbrev biasArr (c : Dev nD) : (⟨1, ![4096]⟩ : Shape).Idx → EReal := m ((c.tc : Thread nD τ).loc main_arg3)

/-- Term i of the inner product of row r of x with weight row o (zero past the last feature). -/
def term (c : Dev nD) (r : Fin 8192) (o : Fin 4096) (i : ℕ) : EReal :=
  if h : i < 4096 then
    xArr m c (ix3 ⟨r.val / 2048, by omega⟩ ⟨r.val % 2048, by omega⟩ ⟨i, h⟩)
      * weight (codeArr m c) (scaleArr m c) o ⟨i, h⟩
  else 0

/-- The inner product's partial sum over the features below K. -/
def psum (c : Dev nD) (r : Fin 8192) (o : Fin 4096) (K : ℕ) : EReal := ∑ i ∈ Finset.range K, term m c r o i

/-- The output channel of entry q of the tile row of point n. -/
def chan (n : ℕ) (q : Fin 256) : Fin 4096 := ⟨256 * (n / 16 % 16) + q.val, by omega⟩

theorem code_congr (codes : (⟨1, ![8388608]⟩ : Shape).Idx → BitVec 32) (a b : Fin 8388608) (h : a.val = b.val) (e e' : ℕ)
    (he : e % 2 = e' % 2) :
    (if e % 2 = 0 then lowCode (codes (ix1 a)) else highCode (codes (ix1 a)))
      = (if e' % 2 = 0 then lowCode (codes (ix1 b)) else highCode (codes (ix1 b))) := by
  obtain rfl : a = b := Fin.ext h
  rw [he]

/-- One point's 256 products are the 256 terms of its tile column. -/
theorem tile_sum (c : Dev nD) (t : Fin cfg0.N) (r : Fin 8192) (q : Fin 256) :
    (∑ j : Fin 256, xblk m c t (ix2 r j) * (codeValue (tileCode (cblk m c t) q j) * sblk m c t (ix2 q 0)))
      = ∑ j ∈ Finset.range 256, term m c r (chan t.val q) (256 * (t.val % 16) + j) := by
  have ht := tlt t
  rw [Finset.sum_range]
  refine Finset.sum_congr rfl fun j _ => ?_
  have hlt : 256 * (t.val % 16) + j.val < 4096 := by omega
  rw [xblk_apply, sblk_apply]
  unfold term
  rw [dif_pos hlt]
  unfold weight
  have hs : (ix2 (⟨256 * (t.val / 16) + q.val, by omega⟩ : Fin 4096) (0 : Fin 1)) = ix2 (chan t.val q) (0 : Fin 1) := by
    congr 1; exact Fin.ext (by unfold chan; dsimp only; omega)
  have hcode : tileCode (cblk m c t) q j = codeAt (codeArr m c) (chan t.val q) ⟨256 * (t.val % 16) + j.val, hlt⟩ := by
    unfold tileCode codeAt
    rw [cblk_apply]
    exact code_congr _ _ _ (by unfold chan; dsimp only; omega) _ _ (by dsimp only; omega)
  rw [hs, hcode]

/-- THE ACCUMULATOR after point n. -/
theorem acc_eq (c : Dev nD) : ∀ (n : ℕ) (h : n < cfg0.N) (r : Fin 8192) (q : Fin 256),
    (outsAt0 m c n h).2 (ix2 r q) = psum m c r (chan n q) (256 * (n % 16 + 1)) := by
  intro n
  induction n with
  | zero =>
    intro h r q
    have h0 : (⟨0, h⟩ : Fin cfg0.N).val % 16 = 0 := rfl
    have h1 : ¬(⟨0, h⟩ : Fin cfg0.N).val % 16 = 15 := by dsimp only; omega
    rw [outsAt0_A m c ⟨0, h⟩ h0 h1]
    dsimp only
    refine (congrFun (acc_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr h0) (fun hh => h1 ((hcond0_1 ⟨0, h⟩).mp hh)) (xblk m c ⟨0, h⟩) (cblk m c ⟨0, h⟩) (sblk m c ⟨0, h⟩) (bblk m c ⟨0, h⟩)) (ix2 r q)).trans ?_
    rw [step_apply, Step.zero_apply, zero_add, tile_sum]
    unfold psum
    refine Finset.sum_congr rfl fun j _ => ?_
    simp
  | succ n ih =>
    intro h r q
    have hN : n + 1 < 256 := lt_of_lt_of_eq h (show cfg0.N = 256 from N_0)
    have hn : n < cfg0.N := Nat.lt_of_succ_lt h
    by_cases h0 : (⟨n + 1, h⟩ : Fin cfg0.N).val % 16 = 0
    · have h1 : ¬(⟨n + 1, h⟩ : Fin cfg0.N).val % 16 = 15 := by dsimp only at h0 ⊢; omega
      rw [outsAt0_A m c ⟨n + 1, h⟩ h0 h1]
      dsimp only
      refine (congrFun (acc_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (fun hh => h1 ((hcond0_1 ⟨n + 1, h⟩).mp hh)) (xblk m c ⟨n + 1, h⟩) (cblk m c ⟨n + 1, h⟩) (sblk m c ⟨n + 1, h⟩) (bblk m c ⟨n + 1, h⟩)) (ix2 r q)).trans ?_
      rw [step_apply, Step.zero_apply, zero_add, tile_sum]
      unfold psum
      dsimp only at h0
      rw [h0]
      refine Finset.sum_congr rfl fun j _ => ?_
      simp
    · by_cases h1 : (⟨n + 1, h⟩ : Fin cfg0.N).val % 16 = 15
      · rw [outsAt0_C m c ⟨n + 1, h⟩ h0 h1]
        dsimp only
        refine (congrFun (acc_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (xblk m c ⟨n + 1, h⟩) (cblk m c ⟨n + 1, h⟩) (sblk m c ⟨n + 1, h⟩) (bblk m c ⟨n + 1, h⟩) (outsAt0 m c n hn).2) (ix2 r q)).trans ?_
        rw [step_apply, ih hn r q, tile_sum]
        unfold psum
        dsimp only at h0 h1 ⊢
        have e1 : chan n q = chan (n + 1) q := Fin.ext (by unfold chan; dsimp only; omega)
        have e2 : 256 * ((n + 1) % 16 + 1) = 256 * (n % 16 + 1) + 256 := by omega
        have e3 : 256 * ((n + 1) % 16) = 256 * (n % 16 + 1) := by omega
        rw [e1, e2, Finset.sum_range_add, e3]
      · rw [outsAt0_B m c ⟨n + 1, h⟩ h0 h1]
        dsimp only
        refine (congrFun (acc_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (xblk m c ⟨n + 1, h⟩) (cblk m c ⟨n + 1, h⟩) (sblk m c ⟨n + 1, h⟩) (bblk m c ⟨n + 1, h⟩) (outsAt0 m c n hn).2) (ix2 r q)).trans ?_
        rw [step_apply, ih hn r q, tile_sum]
        unfold psum
        dsimp only at h0 h1 ⊢
        have e1 : chan n q = chan (n + 1) q := Fin.ext (by unfold chan; dsimp only; omega)
        have e2 : 256 * ((n + 1) % 16 + 1) = 256 * (n % 16 + 1) + 256 := by omega
        have e3 : 256 * ((n + 1) % 16) = 256 * (n % 16 + 1) := by omega
        rw [e1, e2, Finset.sum_range_add, e3]

/-- The output block a tile row's last point leaves: the whole inner product plus the bias. -/
theorem out_eq (c : Dev nD) (t : Fin cfg0.N) (h1 : t.val % 16 = 15) (r : Fin 8192) (q : Fin 256) :
    (outsAt0 m c t.val t.isLt).1 (ix2 r q)
      = psum m c r (chan t.val q) 4096 + biasArr m c (ix1 (chan t.val q)) := by
  have ht := tlt t
  have h0 : ¬t.val % 16 = 0 := by omega
  have hpos : t.val - 1 < cfg0.N := Nat.lt_of_le_of_lt (Nat.sub_le _ _) t.isLt
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (xblk m c t) (cblk m c t) (sblk m c t) (bblk m c t) (outsAt0 m c (t.val - 1) hpos).2) (ix2 r q)).trans ?_
  rw [bias_apply, step_apply, acc_eq m c (t.val - 1) hpos r q, tile_sum, bblk_apply]
  unfold psum
  have e1 : chan (t.val - 1) q = chan t.val q := Fin.ext (by unfold chan; dsimp only; omega)
  have e2 : (4096 : ℕ) = 256 * ((t.val - 1) % 16 + 1) + 256 := by omega
  have e3 : 256 * (t.val % 16) = 256 * ((t.val - 1) % 16 + 1) := by omega
  have e4 : (ix1 (⟨256 * (t.val / 16) + q.val, by omega⟩ : Fin 4096)) = ix1 (chan t.val q) := by
    congr 1; exact Fin.ext (by unfold chan; dsimp only; omega)
  have e5 : Finset.range 4096 = Finset.range (256 * ((t.val - 1) % 16 + 1) + 256) := congrArg Finset.range e2
  rw [e1, e4, e3, e5, Finset.sum_range_add]

end Cert.KernelIdeal.Inv

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.KernelValue.lean ====
/-
  The kernel program's run, read: the pallas_call's result array [8192, 4096] holds, at (r, o), the whole inner
  product of row r of x with weight row o plus bias[o] (each tile row's last point writes its 256 channels back, and
  the sixteen tile rows tile the array); the program's result is that array reshaped to [4, 2048, 4096], which is the
  layer's result of the argument arrays.
-/
import proofs.«406387_j34067680592363_3_alg».proof.Proof.Gen.KernelIdeal.Frame
import proofs.«406387_j34067680592363_3_alg».proof.Proof.Spec
import proofs.«406387_j34067680592363_3_alg».proof.Proof.KernelBlocks
import proofs.«406387_j34067680592363_3_alg».proof.Proof.KernelInv
import Idealize.ShloMosaic.Lib.ValueIdx
import Idealize.ShloMosaic.Lib.Pipeline.Value
import Idealize.ShloMosaic.Lib.StableHlo.Run
import Idealize.ShloMosaic.Lib.Tactic
import proofs.«406387_j34067680592363_3_alg».proof.Proof.LibRowCasts

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Inv Cert.PackedLinear

variable (m : (ℓ : Loc nD τ sig) → Buf (Elt Ideal) ℓ) (ρ : Dev nD → PrngReg)

/-- The pallas_call's result array: at (r, o) the inner product of row r with weight row o, plus bias[o]. -/
def rows (c : Dev nD) : S8192x4096.Idx → EReal := fun y =>
  psum m c ⟨(y 0).val, idx2_lt0 y⟩ ⟨(y 1).val, idx2_lt1 y⟩ 4096 + biasArr m c (ix1 ⟨(y 1).val, idx2_lt1 y⟩)

/-- The output window's block index at point t: all rows, tile row t / 16. -/
theorem idx_facts : ∀ t : Fin cfg0.N, win0_4.index t (0 : Fin 2) = 0 ∧ win0_4.index t (1 : Fin 2) = t.val / 16 :=
  (by decide +kernel : ∀ t : Fin grid0.N, _)

/-- What a tile row's last point writes back is its block of the result array. -/
theorem flushed_eq (c : Dev nD) (t : Fin cfg0.N) (hf : (cfg0.win 4).flush t = true) :
    (dats m 0 c).flushed 4 t = ((cfg0.win 4).blk t).view.read (Elt Ideal) (rows m c) := by
  have h1 : t.val % 16 = 15 := (flush0_4 t).mp hf
  have ht := tlt t
  obtain ⟨e0, e1⟩ := idx_facts t
  show (cfg0.win 4).cut (grid0.coords t) ((dats m 0 c).after 4 t) = _
  rw [after0_4]
  funext y
  show (outsAt0 m c t.val t.isLt).1 y = rows m c (((cfg0.win 4).blk t).view.emb y)
  have hy : (outsAt0 m c t.val t.isLt).1 y = (outsAt0 m c t.val t.isLt).1 (ix2 (y 0) (y 1)) :=
    congrArg (outsAt0 m c t.val t.isLt).1 (eq_ix2 y)
  rw [hy, out_eq m c t h1 (y 0) (y 1)]
  unfold rows
  have hq : (y 1).val < 256 := (y 1).isLt
  have hp : (y 0).val < 8192 := (y 0).isLt
  have c0 : ((((cfg0.win 4).blk t).view.emb y) 0).val = (y 0).val := by
    show win0_4.index t (0 : Fin 2) * 8192 + 1 * (y 0).val = (y 0).val
    omega
  have c1 : ((((cfg0.win 4).blk t).view.emb y) 1).val = 256 * (t.val / 16) + (y 1).val := by
    show win0_4.index t (1 : Fin 2) * 256 + 1 * (y 1).val = 256 * (t.val / 16) + (y 1).val
    omega
  have k0 : (⟨((((cfg0.win 4).blk t).view.emb y) 0).val, idx2_lt0 _⟩ : Fin 8192) = y 0 := Fin.ext c0
  have k1 : (⟨((((cfg0.win 4).blk t).view.emb y) 1).val, idx2_lt1 _⟩ : Fin 4096) = chan t.val (y 1) :=
    Fin.ext (by rw [c1]; unfold chan; dsimp only; omega)
  rw [k0, k1]

/-- An index of the result array is in point t's block iff each coordinate is in the block's range. -/
theorem mem_blk (t : Fin cfg0.N) (i : S8192x4096.Idx) :
    i ∈ ((cfg0.win 4).blk t).view.set ↔ ∀ a : Fin 2, win0_4.index t a * S8192x256.size a ≤ (i a).val ∧ (i a).val < win0_4.index t a * S8192x256.size a + S8192x256.size a := by
  show i ∈ ((View.whole main_v4).slice (win0_4.rect t)).set ↔ _
  rw [View.set_slice_whole, Rect.mem_set_unit]
  exact Iff.rfl

/-- Every index of the result array is written back by the last point of its tile row. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  let t : Fin cfg0.N := ⟨16 * ((i 1).val / 256) + 15, by rw [hN]; omega⟩
  have hv : t.val = 16 * ((i 1).val / 256) + 15 := rfl
  obtain ⟨e0, e1⟩ := idx_facts t
  refine ⟨t, (flush0_4 t).mpr (by rw [hv]; omega), ?_⟩
  rw [mem_blk]
  intro a
  match a with
  | ⟨0, _⟩ => show win0_4.index t (0 : Fin 2) * 8192 ≤ (i 0).val ∧ (i 0).val < win0_4.index t (0 : Fin 2) * 8192 + 8192; omega
  | ⟨1, _⟩ => show win0_4.index t (1 : Fin 2) * 256 ≤ (i 1).val ∧ (i 1).val < win0_4.index t (1 : Fin 2) * 256 + 256; omega

/-- So the result array ends at rows. -/
theorem final (c : Dev nD) : (dats m 0 c).arrAt 4 cfg0.N = rows m c :=
  (dats m 0 c).arrAt_eq_of_cover 4 (rows m c) (flushed_eq m c) (cover)

/-- The reshape after the pallas_call reads row 2048 b + s of the result array at (b, s). -/
theorem tail_eq (c : Dev nD) :
    Pipeline.afterTail₀ cfgs (dats m) 0 (V0 m) [hostOps1] c main_v5
      = shapeCast S4x2048x4096 (rows m c) shapeCasts_S8192x4096_S4x2048x4096 := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.tc.devRef main_v4) = rows m c :=
    (Pipeline.withArrays_arr spec0 launch0.win.arr_inj c _ _ 4).trans (final m c)
  rw [hA]
  rfl

/-- Term i of row 2048 b + s against channel o is x[b, s, i] times weight (o, i). -/
theorem term_eq (c : Dev nD) (b : Fin 4) (s : Fin 2048) (o : Fin 4096) (i : Fin 4096) (r : Fin 8192)
    (hr : r.val = b.val * 2048 + s.val) :
    term m c r o i.val = xArr m c (ix3 b s i) * weight (codeArr m c) (scaleArr m c) o i := by
  unfold term
  rw [dif_pos i.isLt]
  have hb : (⟨r.val / 2048, by omega⟩ : Fin 4) = b := Fin.ext (by dsimp only; omega)
  have hs : (⟨r.val % 2048, by omega⟩ : Fin 2048) = s := Fin.ext (by dsimp only; omega)
  rw [hb, hs]

/-- The reshaped result array is the layer's result of the argument arrays. -/
theorem result_eq (c : Dev nD) :
    shapeCast S4x2048x4096 (rows m c) shapeCasts_S8192x4096_S4x2048x4096
      = Cert.PackedLinear.result (xArr m c) (codeArr m c) (scaleArr m c) (biasArr m c) := by
  funext j
  obtain ⟨b, s, o, rfl⟩ : ∃ (b : Fin 4) (s : Fin 2048) (o : Fin 4096), j = ix3 b s o := ⟨j 0, j 1, j 2, eq_ix3 j⟩
  show _ = resultAt (xArr m c) (codeArr m c) (scaleArr m c) (biasArr m c) b s o
  rw [RowCasts.shapeCast_split_apply (rows m c) shapeCasts_S8192x4096_S4x2048x4096 b s o
    ⟨b.val * 2048 + s.val, by omega⟩ rfl]
  unfold rows resultAt psum
  rw [Finset.sum_range]
  show (∑ i : Fin 4096, term m c ⟨b.val * 2048 + s.val, _⟩ o i.val) + biasArr m c (ix1 o) = _
  congr 1
  exact Finset.sum_congr rfl fun i _ => term_eq m c b s o i _ rfl

/-- Every weakly fair execution of the kernel program ends with its result array at the layer's result of its
    arguments, and the arguments unchanged. -/
theorem run : θ_run defs (onTc (τ := τ) (main (F := Ideal))) ⟨m, fun _ => 0, ρ⟩ fun r => ∀ c : Dev nD,
      r.2.mem ((c.tc : Thread nD τ).loc main_v5)
        = Cert.PackedLinear.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.RefRun.lean ====
/-
  The reference program's run: its thirty operations as a list, and each weakly fair execution ending with the
  result array at the operations' composed term of the four argument arrays, the arguments unchanged.
-/
import proofs.«406387_j34067680592363_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The table of sixteen values, as the program's constant array. -/
def table : (⟨S16, .f32⟩ : BufTy).Contents (Elt F) := fun i => FloatOps.ofBits .f32 (lit0 (S16.rowMajor i))

/-- The low codes of the packed words. -/
def lowCodes (codes : (⟨S8388608, .i32⟩ : BufTy).Contents (Elt F)) : (⟨S8388608, .i32⟩ : BufTy).Contents (Elt F) :=
  andi codes (broadcastInDim S8388608 ![] bcast_S_S8388608 (constantI S_ 32 15#32))

/-- The high codes of the packed words. -/
def highCodes (codes : (⟨S8388608, .i32⟩ : BufTy).Contents (Elt F)) : (⟨S8388608, .i32⟩ : BufTy).Contents (Elt F) :=
  andi (Host.shrsi codes (broadcastInDim S8388608 ![] bcast_S_S8388608 (constantI S_ 32 4#32)))
    (broadcastInDim S8388608 ![] bcast_S_S8388608 (constantI S_ 32 15#32))

/-- The interleaved code sequence: the two columns side by side, read row-major. -/
def codeSeq (codes : (⟨S8388608, .i32⟩ : BufTy).Contents (Elt F)) : (⟨S16777216, .i32⟩ : BufTy).Contents (Elt F) :=
  shapeCast S16777216
    (concatenate S8388608x2 1
      [⟨S8388608x1, broadcastInDim S8388608x1 ![0] bcast_S8388608_S8388608x1_0 (lowCodes (F := F) codes)⟩,
       ⟨S8388608x1, broadcastInDim S8388608x1 ![0] bcast_S8388608_S8388608x1_0 (highCodes (F := F) codes)⟩]
      concatenates_S8388608x1_S8388608x1_S8388608x2_d1)
    shapeCasts_S8388608x2_S16777216

/-- The code sequence with a negative entry raised by sixteen. -/
def wrapped (codes : (⟨S8388608, .i32⟩ : BufTy).Contents (Elt F)) : (⟨S16777216, .i32⟩ : BufTy).Contents (Elt F) :=
  select (cmpi .slt (codeSeq (F := F) codes) (broadcastInDim S16777216 ![] bcast_S_S16777216 (constantI S_ 32 0#32)))
    (addi (codeSeq (F := F) codes) (broadcastInDim S16777216 ![] bcast_S_S16777216 (constantI S_ 32 16#32)))
    (codeSeq (F := F) codes)

/-- The table values of the code sequence. -/
def looked (codes : (⟨S8388608, .i32⟩ : BufTy).Contents (Elt F)) : (⟨S16777216, .f32⟩ : BufTy).Contents (Elt F) :=
  Host.gather gather_S16_S16777216x1_S16777216_n_0_n_n_0_1_1 (table (F := F))
    (broadcastInDim S16777216x1 ![0] bcast_S16777216_S16777216x1_0 (wrapped (F := F) codes))

/-- The weight matrix. -/
def wmat (codes : (⟨S8388608, .i32⟩ : BufTy).Contents (Elt F)) (scale : (⟨S4096x1, .f32⟩ : BufTy).Contents (Elt F)) : (⟨S4096x4096, .f32⟩ : BufTy).Contents (Elt F) :=
  mulf (shapeCast S4096x4096 (looked (F := F) codes) shapeCasts_S16777216_S4096x4096)
    (broadcastInDim S4096x4096 ![0, 1] bcast_S4096x1_S4096x4096_0_1 scale)

/-- The program's result as one term of its arguments. -/
def out (x : (⟨S4x2048x4096, .f32⟩ : BufTy).Contents (Elt F)) (codes : (⟨S8388608, .i32⟩ : BufTy).Contents (Elt F)) (scale : (⟨S4096x1, .f32⟩ : BufTy).Contents (Elt F))
    (bias : (⟨S4096, .f32⟩ : BufTy).Contents (Elt F)) : (⟨S4x2048x4096, .f32⟩ : BufTy).Contents (Elt F) :=
  addf (Host.dotGeneral dot_S4x2048x4096_S4096x4096_S4x2048x4096_2_1_01_0_n_n none x (wmat codes scale))
    (broadcastInDim S4x2048x4096 ![0, 1, 2] bcast_S1x1x4096_S4x2048x4096_0_1_2
      (broadcastInDim S1x1x4096 ![2] bcast_S4096_S1x1x4096_2 bias))

/-- @main's 30 operations, in order. -/
abbrev ops : List (HloOp τ sig (Elt F)) :=
  [ nullary main_cst (fun i => FloatOps.ofBits .f32 (lit0 (S16.rowMajor i))),
    nullary main_c (constantI S_ 32 15#32),
    unary main_c main_v0 (broadcastInDim S8388608 ![] bcast_S_S8388608 : (⟨S_, .i32⟩ : BufTy).Contents (Elt F) → (⟨S8388608, .i32⟩ : BufTy).Contents (Elt F)),
    binary main_arg1 main_v0 main_v1 (andi : (⟨S8388608, .i32⟩ : BufTy).Contents (Elt F) → (⟨S8388608, .i32⟩ : BufTy).Contents (Elt F) → (⟨S8388608, .i32⟩ : BufTy).Contents (Elt F)),
    nullary main_c_0 (constantI S_ 32 4#32),
    unary main_c_0 main_v2 (broadcastInDim S8388608 ![] bcast_S_S8388608 : (⟨S_, .i32⟩ : BufTy).Contents (Elt F) → (⟨S8388608, .i32⟩ : BufTy).Contents (Elt F)),
    binary main_arg1 main_v2 main_v3 (Host.shrsi : (⟨S8388608, .i32⟩ : BufTy).Contents (Elt F) → (⟨S8388608, .i32⟩ : BufTy).Contents (Elt F) → (⟨S8388608, .i32⟩ : BufTy).Contents (Elt F)),
    nullary main_c_1 (constantI S_ 32 15#32),
    unary main_c_1 main_v4 (broadcastInDim S8388608 ![] bcast_S_S8388608 : (⟨S_, .i32⟩ : BufTy).Contents (Elt F) → (⟨S8388608, .i32⟩ : BufTy).Contents (Elt F)),
    binary main_v3 main_v4 main_v5 (andi : (⟨S8388608, .i32⟩ : BufTy).Contents (Elt F) → (⟨S8388608, .i32⟩ : BufTy).Contents (Elt F) → (⟨S8388608, .i32⟩ : BufTy).Contents (Elt F)),
    unary main_v1 main_v6 (broadcastInDim S8388608x1 ![0] bcast_S8388608_S8388608x1_0 : (⟨S8388608, .i32⟩ : BufTy).Contents (Elt F) → (⟨S8388608x1, .i32⟩ : BufTy).Contents (Elt F)),
    unary main_v5 main_v7 (broadcastInDim S8388608x1 ![0] bcast_S8388608_S8388608x1_0 : (⟨S8388608, .i32⟩ : BufTy).Contents (Elt F) → (⟨S8388608x1, .i32⟩ : BufTy).Contents (Elt F)),
    binary main_v6 main_v7 main_v8 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    reshape main_v8 main_v9 rfl shapeCasts_S8388608x2_S16777216,
    nullary main_c_2 (constantI S_ 32 0#32),
    unary main_c_2 main_v10 (broadcastInDim S16777216 ![] bcast_S_S16777216 : (⟨S_, .i32⟩ : BufTy).Contents (Elt F) → (⟨S16777216, .i32⟩ : BufTy).Contents (Elt F)),
    binary main_v9 main_v10 main_v11 (cmpi .slt : (⟨S16777216, .i32⟩ : BufTy).Contents (Elt F) → (⟨S16777216, .i32⟩ : BufTy).Contents (Elt F) → (⟨S16777216, .i1⟩ : BufTy).Contents (Elt F)),
    nullary main_c_3 (constantI S_ 32 16#32),
    unary main_c_3 main_v12 (broadcastInDim S16777216 ![] bcast_S_S16777216 : (⟨S_, .i32⟩ : BufTy).Contents (Elt F) → (⟨S16777216, .i32⟩ : BufTy).Contents (Elt F)),
    binary main_v9 main_v12 main_v13 (addi : (⟨S16777216, .i32⟩ : BufTy).Contents (Elt F) → (⟨S16777216, .i32⟩ : BufTy).Contents (Elt F) → (⟨S16777216, .i32⟩ : BufTy).Contents (Elt F)),
    ternary main_v11 main_v13 main_v9 main_v14 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v14 main_v15 (broadcastInDim S16777216x1 ![0] bcast_S16777216_S16777216x1_0 : (⟨S16777216, .i32⟩ : BufTy).Contents (Elt F) → (⟨S16777216x1, .i32⟩ : BufTy).Contents (Elt F)),
    binary main_cst main_v15 main_v16 ((fun x i => Host.gather gather_S16_S16777216x1_S16777216_n_0_n_n_0_1_1 x i) : (⟨S16, .f32⟩ : BufTy).Contents (Elt F) → (⟨S16777216x1, .i32⟩ : BufTy).Contents (Elt F) → (⟨S16777216, .f32⟩ : BufTy).Contents (Elt F)),
    reshape main_v16 main_v17 rfl shapeCasts_S16777216_S4096x4096,
    unary main_arg2 main_v18 (broadcastInDim S4096x4096 ![0, 1] bcast_S4096x1_S4096x4096_0_1 : (⟨S4096x1, .f32⟩ : BufTy).Contents (Elt F) → (⟨S4096x4096, .f32⟩ : BufTy).Contents (Elt F)),
    binary main_v17 main_v18 main_v19 (mulf : (⟨S4096x4096, .f32⟩ : BufTy).Contents (Elt F) → (⟨S4096x4096, .f32⟩ : BufTy).Contents (Elt F) → (⟨S4096x4096, .f32⟩ : BufTy).Contents (Elt F)),
    binary main_arg0 main_v19 main_v20 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v21 (broadcastInDim S1x1x4096 ![2] bcast_S4096_S1x1x4096_2 : (⟨S4096, .f32⟩ : BufTy).Contents (Elt F) → (⟨S1x1x4096, .f32⟩ : BufTy).Contents (Elt F)),
    unary main_v21 main_v22 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v20 main_v22 main_v23 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., binary_bufs_sub .., binary_bufs_sub .., unary_bufs_sub .., unary_bufs_sub .., binary_bufs_sub ..⟩

/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = out (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (by after_results_simp; rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.RefRun

end
-- ==== Proof.RefValue.lean ====
/-
  The reference program's run, read: its result array is the layer's result (Spec) of its argument arrays.

  The run leaves the result at one term of the four arguments (RefRun). Here that term is read at an index, at the
  extended reals: the contraction as a sum over the 4096 columns; the weight matrix entry (o, i) as the table value of
  the code at flat position 4096 o + i of the interleaved sequence — even positions the low four bits of word
  2048 o + i / 2, odd positions the four bits above — times the row's scale; a masked word is in [0, 16), so it is not
  negative, the raise by sixteen never applies and the clamp of the table lookup does nothing.
-/
import proofs.«406387_j34067680592363_3_alg».proof.Proof.Gen.ReferenceIdeal
import proofs.«406387_j34067680592363_3_alg».proof.Proof.Spec
import proofs.«406387_j34067680592363_3_alg».proof.Proof.RefRun
import Idealize.ShloMosaic.Lib.StableHlo.Run
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

open Idealize.ShloMosaic.ValueIdx Cert.PackedLinear Cert.ReferenceIdeal.RefRun

/-! ## Words masked to four bits -/

/-- A word masked to four bits is below sixteen. -/
theorem and15_lt (c : BitVec 32) : (c &&& 15#32).toNat < 16 := by
  rw [BitVec.toNat_and]
  exact Nat.lt_succ_of_le Nat.and_le_right

/-- Read signed it is the same number. -/
theorem and15_toInt (c : BitVec 32) : (c &&& 15#32).toInt = ((c &&& 15#32).toNat : Int) :=
  BitVec.toInt_eq_toNat_of_lt (by have := and15_lt c; omega)

/-- It is not negative. -/
theorem and15_not_slt (c : BitVec 32) : (c &&& 15#32).slt 0#32 = false := by
  rw [BitVec.slt_eq_decide, and15_toInt, BitVec.toInt_zero]
  exact decide_eq_false (by omega)

/-! ## The code sequence -/

theorem lowCodes_apply (codes : IVec S8388608 32) (k : S8388608.Idx) :
    lowCodes (F := Ideal) codes k = lowCode (codes k) := rfl

theorem highCodes_apply (codes : IVec S8388608 32) (k : S8388608.Idx) :
    highCodes (F := Ideal) codes k = highCode (codes k) := by
  show IntOp.andi (IntOp.shrsi .host (codes k) 4#32) 15#32 = _
  unfold IntOp.shrsi IntOp.andi highCode
  rw [if_pos (by decide)]

/-- The code sequence at flat position p: the low code of word p / 2 for even p, its high code for odd p. -/
theorem codeSeq_apply (codes : IVec S8388608 32) (p : Fin 16777216) :
    codeSeq (F := Ideal) codes (ix1 p)
      = if p.val % 2 = 0 then lowCode (codes (ix1 ⟨p.val / 2, by omega⟩))
        else highCode (codes (ix1 ⟨p.val / 2, by omega⟩)) := by
  unfold codeSeq
  have hq : p.val / 2 < 8388608 := by omega
  have hr : p.val % 2 < 2 := by omega
  rw [shapeCast_apply _ _ (ix1 p) (ix2 (⟨p.val / 2, hq⟩ : Fin 8388608) (⟨p.val % 2, hr⟩ : Fin 2)) (by
    rw [Shape.rowMajor_val_two, Shape.rowMajor_val_one]
    show p.val / 2 * 2 + p.val % 2 = p.val
    omega)]
  by_cases h : p.val % 2 = 0
  · rw [if_pos h, concatenate_pair_apply_left (t := S8388608x2) (s₁ := S8388608x1) (s₂ := S8388608x1) (1 : Fin 2) _ _ _
      (ix2 (⟨p.val / 2, hq⟩ : Fin 8388608) (⟨p.val % 2, hr⟩ : Fin 2)) rfl (ix2 (⟨p.val / 2, hq⟩ : Fin 8388608) (0 : Fin 1)) (by
      intro b
      match b with
      | ⟨0, _⟩ => rfl
      | ⟨1, _⟩ => exact h.symm)]
    rw [broadcastInDim_apply _ _ _ (ix2 (⟨p.val / 2, hq⟩ : Fin 8388608) (0 : Fin 1)) (ix1 (⟨p.val / 2, hq⟩ : Fin 8388608)) (by
      intro a
      match a with
      | ⟨0, _⟩ => rfl)]
    exact lowCodes_apply codes _
  · have h1 : p.val % 2 = 1 := by omega
    rw [if_neg h, concatenate_pair_apply_right (t := S8388608x2) (s₁ := S8388608x1) (s₂ := S8388608x1) (1 : Fin 2) _ _ _
      (ix2 (⟨p.val / 2, hq⟩ : Fin 8388608) (⟨p.val % 2, hr⟩ : Fin 2)) rfl rfl (ix2 (⟨p.val / 2, hq⟩ : Fin 8388608) (0 : Fin 1)) (by
      intro b hb
      match b with
      | ⟨0, _⟩ => rfl
      | ⟨1, _⟩ => exact absurd rfl hb) (by
      show 0 + 1 = p.val % 2
      omega)]
    rw [broadcastInDim_apply _ _ _ (ix2 (⟨p.val / 2, hq⟩ : Fin 8388608) (0 : Fin 1)) (ix1 (⟨p.val / 2, hq⟩ : Fin 8388608)) (by
      intro a
      match a with
      | ⟨0, _⟩ => rfl)]
    exact highCodes_apply codes _

/-- At row o, column i: the specification's code. -/
theorem codeSeq_at (codes : IVec S8388608 32) (o i : Fin 4096) :
    codeSeq (F := Ideal) codes (ix1 (⟨4096 * o.val + i.val, by omega⟩ : Fin 16777216)) = codeAt codes o i := by
  rw [codeSeq_apply]
  unfold codeAt
  have h1 : (4096 * o.val + i.val) % 2 = i.val % 2 := by omega
  have h2 : (4096 * o.val + i.val) / 2 = 2048 * o.val + i.val / 2 := by omega
  simp only [h1, h2]

/-- Every code is a word masked to four bits. -/
theorem codeAt_masked (codes : IVec S8388608 32) (o i : Fin 4096) : ∃ w : BitVec 32, codeAt codes o i = w &&& 15#32 := by
  unfold codeAt
  split
  · exact ⟨_, rfl⟩
  · exact ⟨_, rfl⟩

/-- A masked word is not negative, so raising the negative entries changes nothing. -/
theorem wrapped_apply (codes : IVec S8388608 32) (j : S16777216.Idx) (w : BitVec 32)
    (hw : codeSeq (F := Ideal) codes j = w &&& 15#32) : wrapped (F := Ideal) codes j = w &&& 15#32 := by
  show Scalar.select (IntOp.cmpi .slt (codeSeq (F := Ideal) codes j) 0#32) (IntOp.addi (codeSeq (F := Ideal) codes j) 16#32)
    (codeSeq (F := Ideal) codes j) = _
  rw [hw, show IntOp.cmpi .slt (w &&& 15#32) 0#32 = 0#1 from by
    show BitVec.ofBool ((w &&& 15#32).slt 0#32) = 0#1
    rw [and15_not_slt]; rfl, select_zero]

/-! ## The table -/

theorem lit0_eq (n : Fin 16) : lit0 n = codeTable n := by
  fin_cases n <;> rfl

/-- The table at a masked word, clamped, is the word's table value. -/
theorem table_at (w : BitVec 32) (h : min (w &&& 15#32).toInt.toNat 15 < 16) :
    table (F := Ideal) (ix1 (⟨min (w &&& 15#32).toInt.toNat 15, h⟩ : Fin 16)) = codeValue (w &&& 15#32) := by
  unfold table codeValue
  refine congrArg (Ideal.ofBits .f32) ((lit0_eq _).trans (congrArg codeTable (Fin.ext ?_)))
  show (S16.rowMajor (ix1 (⟨min (w &&& 15#32).toInt.toNat 15, h⟩ : Fin 16))).val = (w &&& 15#32).toNat % 16
  rw [Shape.rowMajor_val_one]
  show min (w &&& 15#32).toInt.toNat 15 = _
  rw [and15_toInt, Int.toNat_natCast]
  have := and15_lt w
  omega

/-- The gather at flat position p: the table at the start index there, read signed and clamped into [0, 15]. -/
theorem looked_apply (codes : IVec S8388608 32) (p : Fin 16777216) :
    looked (F := Ideal) codes (ix1 p)
      = table (F := Ideal) (ix1 (⟨min (wrapped (F := Ideal) codes (ix1 p)).toInt.toNat 15, by omega⟩ : Fin 16)) := by
  unfold looked Host.gather
  congr 1
  funext a
  obtain rfl : a = 0 := Subsingleton.elim _ _
  refine Fin.ext ?_
  show gather_S16_S16777216x1_S16777216_n_0_n_n_0_1_1.start (ix1 p) _ 0
      + gather_S16_S16777216x1_S16777216_n_0_n_n_0_1_1.batchCoord (ix1 p) 0
      + gather_S16_S16777216x1_S16777216_n_0_n_n_0_1_1.offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S16777216x1_S16777216_n_0_n_n_0_1_1.startIndexMap from List.mem_singleton.mpr rfl)]
  have hsi : gather_S16_S16777216x1_S16777216_n_0_n_n_0_1_1.siIdx (ix1 p)
      ⟨List.idxOf (0 : Fin 1) gather_S16_S16777216x1_S16777216_n_0_n_n_0_1_1.startIndexMap,
        List.idxOf_lt_length_iff.2 (List.mem_singleton.mpr rfl)⟩ = ix2 p (0 : Fin 1) := by
    funext b; refine Fin.ext ?_
    match b with
    | ⟨0, _⟩ => rfl
    | ⟨1, _⟩ => rfl
  rw [hsi, broadcastInDim_apply _ _ _ _ (ix1 p) (by
    intro a
    match a with
    | ⟨0, _⟩ => rfl)]
  rfl

/-! ## The weight matrix -/

/-- Entry (o, i) of the program's weight matrix is the specification's. -/
theorem wmat_apply (codes : IVec S8388608 32) (scale : FVec Ideal S4096x1 .f32) (o i : Fin 4096) :
    wmat (F := Ideal) codes scale (ix2 o i) = weight codes scale o i := by
  unfold wmat weight
  rw [mulf_apply]
  refine congrArg₂ (· * ·) ?_ ?_
  · rw [shapeCast_apply _ _ (ix2 o i) (ix1 (⟨4096 * o.val + i.val, by omega⟩ : Fin 16777216)) (by
      rw [Shape.rowMajor_val_two, Shape.rowMajor_val_one]
      show 4096 * o.val + i.val = o.val * 4096 + i.val
      omega)]
    obtain ⟨w, hw⟩ := codeAt_masked codes o i
    rw [looked_apply]
    have hs := codeSeq_at codes o i
    rw [hw] at hs
    have hwr := wrapped_apply codes _ w hs
    rw [hw]
    simp only [hwr]
    exact table_at w _
  · exact broadcastInDim_apply _ _ _ _ (ix2 o (0 : Fin 1)) (by
      intro a
      match a with
      | ⟨0, _⟩ => rfl
      | ⟨1, _⟩ => rfl)

/-! ## The result -/

/-- The program's term at an index: the inner product of the row of x with the row of the weight matrix, plus the bias. -/
theorem out_apply (x : FVec Ideal S4x2048x4096 .f32) (codes : IVec S8388608 32) (scale : FVec Ideal S4096x1 .f32)
    (bias : FVec Ideal S4096 .f32) (j : S4x2048x4096.Idx) :
    out (F := Ideal) x codes scale bias j
      = (∑ i : Fin 4096, x (ix3 (j 0) (j 1) i) * wmat (F := Ideal) codes scale (ix2 (j 2) i)) + bias (ix1 (j 2)) := by
  unfold out
  rw [addf_apply]
  refine congrArg₂ (· + ·) ?_ ?_
  · show FloatOps.dotGeneral dot_S4x2048x4096_S4096x4096_S4x2048x4096_2_1_01_0_n_n none _ x _ j = _
    rw [Ideal.dotGeneral_apply,
      ← Equiv.sum_comp (contrEquiv1 dot_S4x2048x4096_S4096x4096_S4x2048x4096_2_1_01_0_n_n 4096 rfl rfl).symm]
    refine Finset.sum_congr rfl fun c _ => ?_
    have c3 := contrEquiv1_symm_val dot_S4x2048x4096_S4096x4096_S4x2048x4096_2_1_01_0_n_n 4096 rfl rfl c
    have l3 : dot_S4x2048x4096_S4096x4096_S4x2048x4096_2_1_01_0_n_n.lhsIdx j
        ((contrEquiv1 dot_S4x2048x4096_S4096x4096_S4x2048x4096_2_1_01_0_n_n 4096 rfl rfl).symm c) = ix3 (j 0) (j 1) c := by
      funext ax; apply Fin.ext
      match ax with
      | ⟨0, _⟩ => rfl
      | ⟨1, _⟩ => rfl
      | ⟨2, _⟩ => exact c3
    have r3 : dot_S4x2048x4096_S4096x4096_S4x2048x4096_2_1_01_0_n_n.rhsIdx j
        ((contrEquiv1 dot_S4x2048x4096_S4096x4096_S4x2048x4096_2_1_01_0_n_n 4096 rfl rfl).symm c) = ix2 (j 2) c := by
      funext ax; apply Fin.ext
      match ax with
      | ⟨0, _⟩ => rfl
      | ⟨1, _⟩ => exact c3
    rw [l3, r3]
    rfl
  · rw [broadcastInDim_apply _ _ _ j (ix3 (0 : Fin 1) (0 : Fin 1) (j 2 : Fin 4096) : S1x1x4096.Idx) (by
      intro a
      match a with
      | ⟨0, _⟩ => rfl
      | ⟨1, _⟩ => rfl
      | ⟨2, _⟩ => rfl)]
    exact broadcastInDim_apply _ _ _ _ (ix1 (j 2 : Fin 4096) : S4096.Idx) (by
      intro a
      match a with
      | ⟨0, _⟩ => rfl)

/-- The program's term is the layer's result. -/
theorem out_eq (x : FVec Ideal S4x2048x4096 .f32) (codes : IVec S8388608 32) (scale : FVec Ideal S4096x1 .f32)
    (bias : FVec Ideal S4096 .f32) : out (F := Ideal) x codes scale bias = Cert.PackedLinear.result x codes scale bias := by
  funext j
  rw [out_apply]
  show _ = resultAt x codes scale bias (j 0) (j 1) (j 2)
  unfold resultAt
  exact congrArg₂ (· + ·)
    (Finset.sum_congr rfl fun i _ => congrArg (x (ix3 (j 0) (j 1) i) * ·) (wmat_apply codes scale (j 2) i)) rfl

/-- Every weakly fair execution of the reference ends with its result array at the layer's result of its arguments,
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = Cert.PackedLinear.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c => ⟨(h c).1.trans (out_eq _ _ _ _), (h c).2⟩) (RefRun.run (F := Ideal) m ρ)

end Cert.ReferenceIdeal.RefValue

end
-- ==== Proof.lean ====
/-
  The kernel computes a linear layer whose 4096 x 4096 weight matrix is stored as packed 4-bit codes: each 32-bit
  word holds two codes (its low four bits, and the four bits above them), a code selects one of sixteen table
  values, and the selected value is scaled by its row's scale. The kernel walks a 16 x 16 grid of 256 x 256 weight
  tiles, decodes a tile by a chain of fifteen selects per code, multiplies the matching 8192 x 256 block of x
  (the rows of x flattened) by it, and accumulates over the sixteen tile columns into a scratch block that
  starts from zero at a tile row's first column; at the last column it adds the bias and writes the block out.
  The reference decodes all codes at once with a gather from the sixteen-entry table, scales, takes one matrix
  product with x and adds the bias.

  Over the extended reals both compute, at (b, s, o), the sum over the 4096 input features i of
  x[b, s, i] * (table[code(o, i)] * scale[o]) plus bias[o] (Spec): the kernel's sixteen partial sums of 256 terms,
  added in tile-column order onto zero, are that one sum split at multiples of 256 (addition of extended reals is
  associative and zero is its unit: no finiteness is needed), the select chain is the table lookup for every code
  below sixteen, and a change of float format is the identity. The ideal pass rewrote nothing, so the idealized
  kernel is the kernel's own text.
-/
import proofs.«406387_j34067680592363_3_alg».proof.Defs
import proofs.«406387_j34067680592363_3_alg».proof.Proof.Gen.Kernel
import proofs.«406387_j34067680592363_3_alg».proof.Proof.Gen.Kernel.Skeleton
import proofs.«406387_j34067680592363_3_alg».proof.Proof.Gen.Kernel.Launch
import proofs.«406387_j34067680592363_3_alg».proof.Proof.Gen.Kernel.Points
import proofs.«406387_j34067680592363_3_alg».proof.Proof.Gen.Kernel.Frame
import proofs.«406387_j34067680592363_3_alg».proof.Proof.Gen.KernelIdeal
import proofs.«406387_j34067680592363_3_alg».proof.Proof.Gen.KernelIdeal.Skeleton
import proofs.«406387_j34067680592363_3_alg».proof.Proof.Gen.KernelIdeal.Launch
import proofs.«406387_j34067680592363_3_alg».proof.Proof.Gen.KernelIdeal.Points
import proofs.«406387_j34067680592363_3_alg».proof.Proof.Gen.KernelIdeal.Frame
import proofs.«406387_j34067680592363_3_alg».proof.Proof.Gen.ReferenceIdeal
import proofs.«406387_j34067680592363_3_alg».proof.Proof.Gen.Pre_finite_inputs
import proofs.«406387_j34067680592363_3_alg».proof.Proof.KernelValue
import proofs.«406387_j34067680592363_3_alg».proof.Proof.RefValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    -- the reference's run, its result dropped
    fun m ρ _ => (θ_run Cert.ReferenceIdeal.defs _ _).mono (fun _ h c => (h c).2) (Cert.ReferenceIdeal.RefValue.run m ρ),
    trivial,
    -- both runs end at the layer's result of arguments that agree
    fun m ρ m' ρ' _ hagree =>
      ⟨fun c => Cert.PackedLinear.result
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)),
        Cert.KernelIdeal.Result.run m ρ,
        (θ_run Cert.ReferenceIdeal.defs _ _).mono
          (fun _ h c => ⟨by rw [(h c).1, (hagree c).1, (hagree c).2.1, (hagree c).2.2.1, (hagree c).2.2.2], (h c).2⟩)
          (Cert.ReferenceIdeal.RefValue.run m' ρ')⟩⟩

end Cert.Proof

end
